-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x4096 : Shape := ⟨3, ![32, 1024, 4096]⟩
abbrev S_ : Shape := ⟨0, ![]⟩

class Facts : Prop where
  bcast_S_S32x1024x4096 : S_.BroadcastsInDim S32x1024x4096 (![] : Fin 0 → Fin S32x1024x4096.rank)
  reducesTo_S32x1024x4096_S_d0_1_2 : S32x1024x4096.ReducesTo [0, 1, 2] S_
  h_S_ : 0 < S_.numel

variable [Facts]

def fn {F : FTy → Type} [FloatOps F] (main_arg0 : FVec F S32x1024x4096 .f32) (main_arg1 : FVec F S32x1024x4096 .f32) : IVec S_ 1 :=
  let main_v0 : FVec F S32x1024x4096 .f32 := Host.absf main_arg0
  let main_cst : FVec F S_ .f32 := constant S_ .f32 0x7F800000#32
  let main_v1 : FVec F S32x1024x4096 .f32 := broadcastInDim S32x1024x4096 ![] bcast_S_S32x1024x4096 main_cst
  let main_v2 : IVec S32x1024x4096 1 := cmpf .olt main_v0 main_v1
  let main_c : IVec S_ 1 := constantI S_ 1 1#1
  let main_v3 : IVec S_ 1 := (fun x v => Host.reduce IntOp.andi x v reducesTo_S32x1024x4096_S_d0_1_2 h_S_) main_v2 main_c
  let main_v4 : FVec F S32x1024x4096 .f32 := Host.absf main_arg1
  let main_cst_0 : FVec F S_ .f32 := constant S_ .f32 0x7F800000#32
  let main_v5 : FVec F S32x1024x4096 .f32 := broadcastInDim S32x1024x4096 ![] bcast_S_S32x1024x4096 main_cst_0
  let main_v6 : IVec S32x1024x4096 1 := cmpf .olt main_v4 main_v5
  let main_c_1 : IVec S_ 1 := constantI S_ 1 1#1
  let main_v7 : IVec S_ 1 := (fun x v => Host.reduce IntOp.andi x v reducesTo_S32x1024x4096_S_d0_1_2 h_S_) main_v6 main_c_1
  let main_v8 : IVec S_ 1 := andi main_v3 main_v7
  main_v8
-- ==== Kernel.lean ====
abbrev S32x1024x4096 : Shape := ⟨3, ![32, 1024, 4096]⟩
abbrev S32768x4096 : Shape := ⟨2, ![32768, 4096]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S32x1024x4096, .f32⟩
  | .hbm, ⟨1, _⟩ => ⟨S32x1024x4096, .f32⟩
  | .hbm, ⟨2, _⟩ => ⟨S32768x4096, .f32⟩
  | .hbm, ⟨3, _⟩ => ⟨S32768x4096, .f32⟩
  | .hbm, ⟨4, _⟩ => ⟨S32768x4096, .f32⟩
  | .hbm, ⟨5, _⟩ => ⟨S32x1024x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S32x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1024x4096_S32768x4096 : S32x1024x4096.ShapeCasts S32768x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S32768x4096_S32x1024x4096 : S32768x4096.ShapeCasts S32x1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .f32 = 32 ∨ (Rect.block (s := S32768x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S32768x4096.size a
  hwx0_2 : ∀ i : grid0.Coords, EltTy.bits .f32 = 32 ∨ (Rect.block (s := S32768x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x4096 : Shape := ⟨3, ![32, 1024, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32x1024x4096, .f32⟩
  | .hbm, ⟨1, _⟩ => ⟨S32x1024x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32x1024x4096, .f32⟩
  | .hbm, ⟨7, _⟩ => ⟨S32x1024x4096, .f32⟩
  | .hbm, ⟨8, _⟩ => ⟨S32x1024x4096, .f32⟩
  | .hbm, ⟨9, _⟩ => ⟨S32x1024x4096, .f32⟩
  | .hbm, ⟨10, _⟩ => ⟨S_, .f32⟩
  | .hbm, ⟨11, _⟩ => ⟨S32x1024x4096, .f32⟩
  | .hbm, ⟨12, _⟩ => ⟨S32x1024x4096, .f32⟩
  | .hbm, ⟨13, _⟩ => ⟨S_, .f32⟩
  | .hbm, ⟨14, _⟩ => ⟨S32x1024x4096, .f32⟩
  | .hbm, ⟨15, _⟩ => ⟨S32x1024x4096, .f32⟩
  | .hbm, ⟨16, _⟩ => ⟨S32x1024x4096, .f32⟩
  | .hbm, ⟨17, _⟩ => ⟨S32x1024x4096, .f32⟩
  | _, _ => ⟨S32x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S32x1024x4096 : S_.BroadcastsInDim S32x1024x4096 (![] : Fin 0 → Fin S32x1024x4096.rank)

variable [Facts₀]

class Facts : Prop extends Facts₀ where

variable [Facts]
-- ==== Proof.Quantize.lean ====
/-
  The scalar function both programs apply at every element, on the extended reals.

  With step `σ = 2⁻⁴`, an element `x` and a noise term `r`, the quantiser is
      q x r = min (8 - σ) (max (-8) (⌊x · 16 + r⌋ · σ)),
  the floor of an extended real fixing the two infinities. The kernel spells the scale as the product with `16` and
  the upper bound as the literal `7.9375`; the reference divides by `σ` and subtracts `σ` from `8`. Both spellings
  denote the same extended reals: `σ` is a nonzero real, so the quotient by it is the product with its reciprocal
  `16` for every extended real `x` (the infinities included), and `8 - 1/16 = 127/16` is a subtraction of reals.
  No finiteness of `x` or `r` is used.
-/
import Idealize.ShloMosaic.PureOps.Ideal

noncomputable section

namespace Cert.Quantize

open Idealize.ShloMosaic

/-- The quantiser at one element, in the kernel's spelling: scale by `16`, add the noise, floor, scale back by `2⁻⁴`,
    clamp below at `-8` and above at `7.9375`. -/
def q (x r : EReal) : EReal :=
  min (Ideal.ofBits .f32 0x40FE0000#32)
    (max (Ideal.ofBits .f32 0xC1000000#32)
      (Ideal.liftRound Int.floor (x * Ideal.ofBits .f32 0x41800000#32 + r) * Ideal.ofBits .f32 0x3D800000#32))

/-- The step `0.0625` denotes the real `1/16`. -/
theorem step_word : Ideal.ofBits .f32 0x3D800000#32 = ((1 / 16 : ℝ) : EReal) := by
  simp [Ideal.ofBits, Ideal.ieee, -EReal.coe_mul]; norm_num

/-- The scale `16.0` denotes the real `16`. -/
theorem scale_word : Ideal.ofBits .f32 0x41800000#32 = ((16 : ℝ) : EReal) := by
  simp [Ideal.ofBits, Ideal.ieee, -EReal.coe_mul]; norm_num

/-- `8.0` denotes the real `8`. -/
theorem eight_word : Ideal.ofBits .f32 0x41000000#32 = ((8 : ℝ) : EReal) := by
  simp [Ideal.ofBits, Ideal.ieee, -EReal.coe_mul]; norm_num

/-- The kernel's upper bound `7.9375` denotes the real `127/16`. -/
theorem top_word : Ideal.ofBits .f32 0x40FE0000#32 = ((127 / 16 : ℝ) : EReal) := by
  simp [Ideal.ofBits, Ideal.ieee, -EReal.coe_mul]; norm_num

/-- Dividing by the step is multiplying by the scale, on every extended real: the step is a nonzero real whose
    reciprocal is `16`. -/
theorem div_step (x : EReal) :
    Ideal.div x (Ideal.ofBits .f32 0x3D800000#32) = x * Ideal.ofBits .f32 0x41800000#32 := by
  rw [step_word, scale_word, Ideal.div_coe (by norm_num : (1 / 16 : ℝ) ≠ 0)]
  norm_num

/-- The reference's upper bound `8 - σ` is the kernel's literal: `8 - 1/16 = 127/16`, a subtraction of reals. -/
theorem top_eq :
    Ideal.ofBits .f32 0x41000000#32 - Ideal.ofBits .f32 0x3D800000#32 = Ideal.ofBits .f32 0x40FE0000#32 := by
  rw [eight_word, step_word, top_word, ← EReal.coe_sub]
  norm_num

/-- The reference's spelling of the quantiser at one element is `q`. -/
theorem q_of_div (x r : EReal) :
    min (Ideal.ofBits .f32 0x41000000#32 - Ideal.ofBits .f32 0x3D800000#32)
      (max (Ideal.ofBits .f32 0xC1000000#32)
        (Ideal.liftRound Int.floor (Ideal.div x (Ideal.ofBits .f32 0x3D800000#32) + r) * Ideal.ofBits .f32 0x3D800000#32))
      = q x r := by
  rw [top_eq, div_step]; rfl

end Cert.Quantize

end
-- ==== Proof.KernelValue.lean ====
/-
  The idealized kernel's result, element by element.

  @main reshapes each argument `[32, 1024, 4096]` to `[32768, 4096]`, runs one pallas_call over a grid of 128 points,
  and reshapes the call's output back. Grid point `t` works on rows `256·t … 256·t + 255` of all three 2-D arrays
  (the three index maps are the same map `t ↦ (t, 0)`, and a block is 256 whole rows), loads the two input blocks
  whole, and stores `q` of them elementwise. So:
    * what point `t` writes back is block `t` of the ONE 2-D function `i ↦ q (x₂ i) (r₂ i)`, where `x₂`, `r₂` are the
      reshaped arguments;
    * row `i₀` lies in the block of point `i₀ / 256`, so the 128 blocks cover the output, which therefore ends at
      that function;
    * a reshape keeps row-major positions, and reshaping there and back is the identity, so the result at a 3-D
      index `j` is `q (x j) (r j)`.
-/
import proofs.«181486_j14353780703995_1_alg».proof.Proof.Gen.KernelIdeal.Frame
import proofs.«181486_j14353780703995_1_alg».proof.Proof.Quantize
import Idealize.ShloMosaic.Lib.Pipeline.Value
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Quantize (q)

variable (m : (ℓ : Loc nD τ sig) → Buf (Elt Ideal) ℓ) (ρ : Dev nD → PrngReg)

/-! ## The body's arithmetic -/

/-- The stored value is the quantiser of the two loaded blocks, element by element: the two same-shape casts are
    the identity, every other operation is elementwise or the splat of a constant. -/
theorem pay_eq (v0 v2 : Vec Ideal S256x4096 .f32) :
    k0_pay1 (F := Ideal) v0 v2 = fun y => q (v0 y) (v2 y) := by
  funext y
  simp only [k0_pay1, shapeCast_self, minimumf, maximumf, mulf, addf, floor, broadcast,
    Ideal.minimumf_def, Ideal.maximumf_def, Ideal.mulf_def, Ideal.addf_def, Ideal.floor_def, Ideal.ofBits_def, q]

/-! ## The 2-D arrays the region finds -/

/-- The region finds the first argument reshaped to `[32768, 4096]`. -/
theorem V_main_v0 (c : Dev nD) :
    (V m c main_v0 : S32768x4096.Idx → EReal)
      = shapeCast S32768x4096 (m ((c : Thread nD τ).loc main_arg0)) shapeCasts_S32x1024x4096_S32768x4096 := by
  show StableHlo.after hostOps0 (fun b => m (c, b)) (Proc.devRef .tc main_v0) = _
  after_results
  rfl

/-- The region finds the second argument reshaped to `[32768, 4096]`. -/
theorem V_main_v1 (c : Dev nD) :
    (V m c main_v1 : S32768x4096.Idx → EReal)
      = shapeCast S32768x4096 (m ((c : Thread nD τ).loc main_arg1)) shapeCasts_S32x1024x4096_S32768x4096 := by
  show StableHlo.after hostOps0 (fun b => m (c, b)) (Proc.devRef .tc main_v1) = _
  after_results
  rfl

/-- What the call's output array ends holding: the quantiser of the two reshaped arguments, row by row. -/
abbrev rows (c : Dev nD) : S32768x4096.Idx → EReal := fun i => q (V m c main_v0 i) (V m c main_v1 i)

/-! ## One grid point's block -/

theorem zero_off : (![0, 0] : Fin 2 → Nat) = fun _ => 0 := funext fun a => by fin_cases a <;> rfl

/-- The three index maps agree at every grid point. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row block `b < 128` is some grid point's output block. -/
theorem block_onto : ∀ b : Fin 128, ∃ t : Fin cfg0.N, win0_2.index t = ![b.val, 0] :=
  (by decide +kernel : ∀ b : Fin 128, ∃ t : Fin grid0.N, win0_2.index t = ![b.val, 0])

/-- What grid point `t` writes back is block `t` of `rows`: the body's one store covers the staging buffer with
    the quantiser of the two input blocks, and each input block is its array read at the very rows and columns the
    output block names. -/
theorem flushed_eq (c : Dev nD) (t : Fin cfg0.N) :
    (dats m 0 c).flushed 2 t = ((cfg0.win 2).blk t).view.read (Elt Ideal) (rows m c) := by
  show (cfg0.win 2).cut (grid0.coords t) ((dats m 0 c).after 2 t) = _
  rw [after0_2]
  unfold out0_2
  rw [View.canon_unit_zero zero_off]
  simp only [View.ld_unit_zero (S := S256x4096) zero_off]
  rw [pay_eq]
  obtain ⟨e0, e1, e2, e3⟩ := same_block t
  funext j
  show q (V m c main_v0 (((cfg0.win 0).blk t).view.emb j)) (V m c main_v1 (((cfg0.win 1).blk t).view.emb j))
    = q (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-! ## The blocks cover the output -/

/-- An index of the output array is in point `t`'s block iff each coordinate is in the block's range on its axis. -/
theorem mem_block (t : Fin cfg0.N) (i : S32768x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Row `i₀` is in the block of the point whose row block is `i₀ / 256`; a block holds whole rows. -/
theorem covered (i : S32768x4096.Idx) :
    ∃ t : Fin cfg0.N, (cfg0.win 2).flush t = true ∧ i ∈ ((cfg0.win 2).blk t).view.set := by
  have hi0 : (i 0).val < 32768 := (i 0).isLt
  have hi1 : (i 1).val < 4096 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The call's output array after the run is `rows`. -/
theorem output_rows (c : Dev nD) : (dats m 0 c).arrAt 2 cfg0.N = rows m c :=
  (dats m 0 c).arrAt_eq_of_cover 2 (rows m c) (fun t _ => flushed_eq m c t) covered

/-! ## The reshape back, and the run -/

/-- @main's result: the output reshaped to `[32, 1024, 4096]` reads, at `j`, the quantiser of the two arguments at
    `j` — the arguments were reshaped the other way, and there and back is the identity. -/
theorem result_eq (c : Dev nD) :
    Pipeline.afterTail₀ cfgs (dats m) 0 (V0 m) [hostOps1] c main_v3
      = fun j => q (m ((c : Thread nD τ).loc main_arg0) j) (m ((c : Thread nD τ).loc main_arg1) j) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = rows m c :=
    (Pipeline.withArrays_arr spec0 launch0.win.arr_inj c _ _ 2).trans (output_rows m c)
  rw [hw]
  funext j
  show q (V m c main_v0 (Shape.reshapeEquiv shapeCasts_S32768x4096_S32x1024x4096 j))
      (V m c main_v1 (Shape.reshapeEquiv shapeCasts_S32768x4096_S32x1024x4096 j)) = _
  rw [V_main_v0, V_main_v1]
  exact congrArg₂ q
    (congrFun (shapeCast_shapeCast (m ((c : Thread nD τ).loc main_arg0)) shapeCasts_S32x1024x4096_S32768x4096
      shapeCasts_S32768x4096_S32x1024x4096) j)
    (congrFun (shapeCast_shapeCast (m ((c : Thread nD τ).loc main_arg1)) shapeCasts_S32x1024x4096_S32768x4096
      shapeCasts_S32768x4096_S32x1024x4096) j)

/-- The idealized kernel's run with its result named: every weakly fair execution of @main terminates with the
    result at the quantiser of the two arguments, element by element, and the arguments as launched. -/
theorem run : θ_run defs (onTc (τ := τ) (main (F := Ideal))) ⟨m, fun _ => 0, ρ⟩ fun r => ∀ c : Dev nD,
      r.2.mem ((c.tc : Thread nD τ).loc main_v3)
        = (fun j => q (m ((c.tc : Thread nD τ).loc main_arg0) j) (m ((c.tc : Thread nD τ).loc main_arg1) j))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference's result, element by element.

  The reference is sixteen host operations, every one of them elementwise or the broadcast of a scalar, so its result
  at an index `j` depends on `x j` and `r j` alone: it is `min (8 - σ) (max (-8) (⌊x j / σ + r j⌋ · σ))` with
  `σ = 2⁻⁴`, which is the quantiser `q (x j) (r j)` (the quotient by `σ` is the product with `16`, and
  `8 - σ = 7.9375`).
-/
import proofs.«181486_j14353780703995_1_alg».proof.Proof.Gen.ReferenceIdeal.Read
import proofs.«181486_j14353780703995_1_alg».proof.Proof.Quantize

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

/-- The reference's last stage at an index is the quantiser of the two arguments there: each broadcast reads its
    scalar, each elementwise operation reads its operands at the same index, and what is left is the quantiser in
    the reference's spelling. -/
theorem result_eq (x r : (⟨S32x1024x4096, .f32⟩ : BufTy).Contents (Elt Ideal)) :
    val_main_v7 (F := Ideal) x r = fun j => Cert.Quantize.q (x j) (r j) := by
  funext j
  rw [val_main_v7_apply, val_main_call0_v2_apply, val_main_v0_apply, val_main_cst_apply, val_main_cst_0_apply,
    val_main_call0_v1_apply, val_main_call0_v0_apply, val_main_cst_3_apply, val_main_v6_apply, val_main_v4_apply,
    val_main_v3_apply, val_main_v2_apply, val_main_v1_apply, val_main_cst_1_apply, val_main_v5_apply,
    val_main_cst_2_apply]
  simp only [Ideal.minimumf_def, Ideal.maximumf_def, Ideal.subf_def, Ideal.mulf_def, Ideal.addf_def,
    Ideal.hostDivf_def, Ideal.hostUnary_floor_def, Ideal.ofBits_def]
  exact Cert.Quantize.q_of_div (x j) (r j)

end Cert.ReferenceIdeal.RefValue

end
-- ==== Proof.lean ====
/-
  A stochastic-rounding fixed-point quantiser (8-bit words, 4 fractional bits), tiled kernel against jnp reference,
  over the extended reals.

  With `σ = 2⁻⁴`, both programs compute at every element of `x, r : f32[32, 1024, 4096]`
      q x r = min (8 - σ) (max (-8) (⌊x · 16 + r⌋ · σ)).
  The kernel flattens to `[32768, 4096]`, quantises 256 rows per grid point with the scale spelt `· 16` and the upper
  bound spelt `7.9375`, and reshapes back; the reference works on the 3-D arrays directly with the scale spelt `/ σ`
  and the bound spelt `8 - σ`. The two spellings denote the same extended reals (Proof/Quantize.lean: `σ` is a
  nonzero real with reciprocal `16`, and `8 - 1/16 = 127/16`), the reshapes cancel and the row blocks tile the
  flattened array (Proof/KernelValue.lean), and the reference's stages read elementwise (Proof/RefValue.lean). The
  equality holds for all extended-real inputs, so the precondition is not opened. The ideal pass rewrote nothing, so
  `preserves` is `True`.
-/
import proofs.«181486_j14353780703995_1_alg».proof.Defs
import proofs.«181486_j14353780703995_1_alg».proof.Proof.Gen.Kernel
import proofs.«181486_j14353780703995_1_alg».proof.Proof.Gen.Kernel.Skeleton
import proofs.«181486_j14353780703995_1_alg».proof.Proof.Gen.Kernel.Launch
import proofs.«181486_j14353780703995_1_alg».proof.Proof.Gen.Kernel.Points
import proofs.«181486_j14353780703995_1_alg».proof.Proof.Gen.Kernel.Frame
import proofs.«181486_j14353780703995_1_alg».proof.Proof.Gen.KernelIdeal
import proofs.«181486_j14353780703995_1_alg».proof.Proof.Gen.KernelIdeal.Skeleton
import proofs.«181486_j14353780703995_1_alg».proof.Proof.Gen.KernelIdeal.Launch
import proofs.«181486_j14353780703995_1_alg».proof.Proof.Gen.KernelIdeal.Points
import proofs.«181486_j14353780703995_1_alg».proof.Proof.Gen.KernelIdeal.Frame
import proofs.«181486_j14353780703995_1_alg».proof.Proof.Gen.ReferenceIdeal
import proofs.«181486_j14353780703995_1_alg».proof.Proof.Gen.ReferenceIdeal.Run
import proofs.«181486_j14353780703995_1_alg».proof.Proof.Gen.ReferenceIdeal.Read
import proofs.«181486_j14353780703995_1_alg».proof.Proof.Gen.Pre_finite_inputs
import proofs.«181486_j14353780703995_1_alg».proof.Proof.Quantize
import proofs.«181486_j14353780703995_1_alg».proof.Proof.KernelValue
import proofs.«181486_j14353780703995_1_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on `x` and `r`, both idealized programs end with the result `j ↦ q (x j) (r j)`. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
